-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S262144x256 .f32) (main_arg1 : FVec F S256x256 .f32) (main_arg2 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S256 : Shape := ⟨1, ![256]⟩
abbrev S4096x256 : Shape := ⟨2, ![4096, 256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S262144x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S256, .f32⟩
  | .local _ .vmem, ⟨4, _⟩ => ⟨S4096x256, .f32⟩
  | .local _ .vmem, ⟨5, _⟩ => ⟨S4096x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  inb_S256_S256_0 : ∀ a, (![0] : Fin 1 → Nat) a + S256.size a ≤ S256.size a
  h_S256 : 0 < S256.numel
  natLt_1_32 : 1 < 32
  broadcasts_S256x1_S256x256 : S256x1.Broadcasts S256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  transposes_S256x256_p1_0_S256x256 : S256x256.Transposes [1, 0] S256x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S262144x256.size a
  hwx0_3 : ∀ i : grid0.Coords, EltTy.bits .f32 = 32 ∨ (Rect.block (s := S262144x256) S4096x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S256 : Shape := ⟨1, ![256]⟩
abbrev S_ : Shape := ⟨0, ![]⟩
abbrev S256x1 : Shape := ⟨2, ![256, 1]⟩

abbrev nBuf : Space → Nat
  | .hbm => 19
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .i1⟩
  | .hbm, ⟨13, _⟩ => ⟨S256, .f32⟩
  | .hbm, ⟨14, _⟩ => ⟨S256x1, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.GatedLinear.lean ====
/-
  A linear layer whose output channels are gated by the weight's own row means.

  For a weight `w : [256, 256]` (row `o` belongs to output channel `o`) and thresholds `th : [256]`, channel `o` is kept
  when the mean of the absolute values of its row exceeds its threshold, and dropped otherwise:

      gate w th o  =  1  if  (Σ_k |w[o,k]|) / 256 − th[o] > 0,   0  otherwise.

  The layer multiplies each row of the weight by its gate and applies the gated weight to the rows of `x : [B, 256]`:

      out[b, o]  =  Σ_k x[b,k] · (w[o,k] · gate w th o).

  Everything is read over the extended reals, where |a| is max a (−a), the quotient is the extended quotient, and the comparison
  answers one bit which is then read as the number 0 or 1.  This file fixes `gate` and the layer as functions of the arrays,
  and reads the gate off the two ways it is spelt: as a column `[256, 1]` computed from a lane sum with a neutral accumulator,
  the bit widened to a word and converted signed; the other spelling, a vector `[256]` computed from a sum started at a zero initial value with the bit converted
  unsigned, is read where the host program's stages are.  Both are the same 0/1 number because a one-bit word widened with
  zeros has the same value read signed or unsigned.
-/
import Idealize.ShloMosaic.PureOps.Ideal.Laws
import Idealize.ShloMosaic.Lib.ValueIdx
import Idealize.ShloMosaic.Lib.ValueLayout
import Idealize.ShloMosaic.Lib.KernelVsHost
import proofs.«141968_j15393162789082_1_alg».proof.Proof.LibKeepdims

noncomputable section

namespace Cert.GatedLinear

open Idealize.ShloMosaic Idealize.ShloMosaic.ValueIdx

/-- The weight's shape, the thresholds' shape, and the gate kept as a column. -/
abbrev SW : Shape := ⟨2, ![256, 256]⟩
abbrev ST : Shape := ⟨1, ![256]⟩
abbrev SC : Shape := ⟨2, ![256, 1]⟩

/-- The sum of the absolute values of row `o` of the weight. -/
def rowAbsSum (w : SW.Idx → EReal) (o : Fin 256) : EReal := ∑ k : Fin 256, max (w (ix2 o k)) (-(w (ix2 o k)))

/-- Channel `o`'s gate: 1 when the row's mean absolute value minus the threshold is positive, 0 otherwise. -/
def gate (w : SW.Idx → EReal) (th : ST.Idx → EReal) (o : Fin 256) : EReal :=
  (((Ideal.cmp .ogt (Ideal.div (rowAbsSum w o) (Ideal.ofBits .f32 0x43800000#32) - th (ix1 o)) (Ideal.ofBits .f32 0x00000000#32)).toNat : ℝ) : EReal)

/-- The batch: 262144 rows of 256 features. -/
abbrev SX : Shape := ⟨2, ![262144, 256]⟩

/-- The layer's result as one function of the three arrays: entry `(b, o)` is row `b` of `x` against the gated row `o` of `w`. -/
def out (x : SX.Idx → EReal) (w : SW.Idx → EReal) (th : ST.Idx → EReal) : SX.Idx → EReal := fun i =>
  ∑ k : Fin 256, x (ix2 (⟨(i 0).val, idx2_lt0 i⟩ : Fin 262144) k)
    * (w (ix2 (⟨(i 1).val, idx2_lt1 i⟩ : Fin 256) k) * gate w th ⟨(i 1).val, idx2_lt1 i⟩)

/-- At `(b, o)`. -/
theorem out_apply (x : SX.Idx → EReal) (w : SW.Idx → EReal) (th : ST.Idx → EReal) (b : Fin 262144) (o : Fin 256) :
    out x w th (ix2 b o) = ∑ k : Fin 256, x (ix2 b k) * (w (ix2 o k) * gate w th o) := rfl

/-- A lane sum of the absolute values with the neutral accumulator, read at row `o`. -/
theorem laneSum_abs_apply (w : FVec Ideal SW .f32) (hr : SW.Reduces [1] ST) (o : Fin 256) :
    multiReduction .add [1] ST (absf w) 0x00000000#32 hr (.inl rfl) rfl (ix1 o) = rowAbsSum w o := by
  refine (Ideal.multiReduction_add_single (absf w) 0x00000000#32 hr (.inl rfl) rfl (ix1 o)).trans ?_
  unfold rowAbsSum
  refine Finset.sum_congr rfl fun k _ => ?_
  have e : hr.lift (ix1 o) k = ix2 o k := funext fun a => Fin.ext (by match a with | ⟨0, _⟩ => rfl | ⟨1, _⟩ => rfl)
  exact congrArg (fun i => max (w i) (-(w i))) e

/-- The gate as the column `[256, 1]`: the lane sum recast as a column, divided by 256, the thresholds recast as a column
    subtracted, compared with zero, the bit widened to a word and converted signed.  At `(o, 0)` it is `gate w th o`. -/
theorem gateColumn_apply (w : FVec Ideal SW .f32) (th : FVec Ideal ST .f32) (hr : SW.Reduces [1] ST) (hsc : ST.ShapeCasts SC)
    (h132 : 1 < 32) (o : Fin 256) (u : Fin 1) :
    (sitofp .f32 (extui 32 (cmpf .ogt (subf (divf (shapeCast SC (multiReduction .add [1] ST (absf w) 0x00000000#32 hr (.inl rfl) rfl) hsc)
        (broadcast SC (Scalar.ofBits .f32 0x43800000#32))) (shapeCast SC th hsc)) (broadcast SC (Scalar.ofBits .f32 0x00000000#32))) h132)
        : FVec Ideal SC .f32) (ix2 o u) = gate w th o := by
  rw [sitofp_extui_eq_uitofp]
  show (((Ideal.cmp .ogt (Ideal.div (shapeCast SC (multiReduction .add [1] ST (absf w) 0x00000000#32 hr (.inl rfl) rfl) hsc (ix2 o u))
      (Ideal.ofBits .f32 0x43800000#32) - shapeCast SC th hsc (ix2 o u)) (Ideal.ofBits .f32 0x00000000#32)).toNat : ℝ) : EReal) = _
  rw [Cert.LibKeepdims.shapeCast_a_a1_apply, Cert.LibKeepdims.shapeCast_a_a1_apply, laneSum_abs_apply]
  rfl

end Cert.GatedLinear

end
-- ==== Proof.KernelBlock.lean ====
/-
  One grid point's block of the result.  The body multiplies its block of `x` (4096 rows) by the gated weight transposed,
  a matrix product into a zero accumulator.  Read at `(r, o)` the product is the sum over the contracted coordinate `k` of
  `x[r,k]` times entry `(k, o)` of the right operand, and that entry is `w[o,k] · gate w th o`: the transpose swaps the
  coordinates, the narrowing of the float format is the identity over the extended reals, and the gate column broadcast along
  the row is the gate of the row.
-/
import proofs.«141968_j15393162789082_1_alg».proof.Proof.Gen.KernelIdeal.Skeleton
import proofs.«141968_j15393162789082_1_alg».proof.Proof.GatedLinear

noncomputable section

namespace Cert.KernelIdeal.Block

open Cert.KernelIdeal Cert.KernelIdeal.Gen Idealize.ShloMosaic Idealize.ShloMosaic.ValueIdx Cert.GatedLinear

/-- The left operand's index for result `i` and contracted index `q`: row `i 0`, column `q`. -/
theorem lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand's: row `q`, column `i 1`. -/
theorem rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product's right operand, the gated weight transposed, at `(k, o)`: `w[o,k]` times channel `o`'s gate. -/
theorem gatedT_apply (w : FVec Ideal S256x256 .f32) (th : FVec Ideal S256 .f32) (k o : Fin 256) :
    (transpose S256x256 [1, 0] (truncf .bf16 (mulf w (broadcastTo S256x256 (sitofp .f32 (extui 32 (cmpf .ogt (subf (divf
        (shapeCast S256x1 (multiReduction .add [1] S256 (absf w) 0x00000000#32 reduces_S256x256_S256 (.inl rfl) rfl) shapeCasts_S256_S256x1)
        (broadcast S256x1 (Scalar.ofBits .f32 0x43800000#32))) (shapeCast S256x1 th shapeCasts_S256_S256x1))
        (broadcast S256x1 (Scalar.ofBits .f32 0x00000000#32))) natLt_1_32)) broadcasts_S256x1_S256x256)) bitsLt_bf16_f32)
        transposes_S256x256_p1_0_S256x256 : FVec Ideal S256x256 .bf16) (ix2 k o)
      = w (ix2 o k) * gate w th o := by
  refine (transpose_ix2_apply (a := 256) (b := 256) _ transposes_S256x256_p1_0_S256x256 k o).trans ?_
  refine congrArg (w (ix2 o k) * ·) ?_
  refine (Cert.LibKeepdims.broadcastTo_a1_ab_apply (a := 256) (b := 256) _ broadcasts_S256x1_S256x256 o k).trans ?_
  exact gateColumn_apply w th reduces_S256x256_S256 shapeCasts_S256_S256x1 natLt_1_32 o 0

/-- THE BLOCK: the body's stored value at `(r, o)` is row `r` of its block of `x` against the gated row `o` of the weight. -/
theorem pay_apply (w : Vec Ideal S256x256 .f32) (th : Vec Ideal S256 .f32) (xb : Vec Ideal S4096x256 .f32) (r : Fin 4096) (o : Fin 256) :
    k0_pay1 (F := Ideal) w th xb (ix2 r o) = ∑ k : Fin 256, xb (ix2 r k) * (w (ix2 o k) * gate w th o) := by
  unfold k0_pay1
  refine (Ideal.matmul_constant_zero_apply dot_S4096x256_S256x256_S4096x256_1_0_0_1_n_n none _ _ (ix2 r o)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r o) ((contrEquiv1 dot_S4096x256_S256x256_S4096x256_1_0_0_1_n_n 256 rfl rfl).symm k) = ix2 r k := funext fun a => Fin.ext (by
    match a with
    | ⟨0, _⟩ => exact lhs_0 _ _
    | ⟨1, _⟩ => exact (lhs_1 _ _).trans hk)
  have er : dot_S4096x256_S256x256_S4096x256_1_0_0_1_n_n.rhsIdx (ix2 r o) ((contrEquiv1 dot_S4096x256_S256x256_S4096x256_1_0_0_1_n_n 256 rfl rfl).symm k) = ix2 k o := funext fun a => Fin.ext (by
    match a with
    | ⟨0, _⟩ => exact (rhs_0 _ _).trans hk
    | ⟨1, _⟩ => exact rhs_1 _ _)
  rw [el, er]
  exact congrArg (xb (ix2 r k) * ·) (gatedT_apply w th k o)

end Cert.KernelIdeal.Block

end
-- ==== Proof.KernelWhole.lean ====
/-
  From the grid points' blocks to the whole result array.  Point `t` of the 64 stages rows `4096·t … 4096·t + 4095` of `x`,
  the whole weight and the whole threshold vector, and writes back rows `4096·t … 4096·t + 4095` of the result.  By the block
  lemma, what it writes at `(r, o)` is row `4096·t + r` of `x` against the gated row `o` of the weight, which is entry
  `(4096·t + r, o)` of the layer's function of the three whole arrays.  Row `b` lies in point `b / 4096`'s block, so the
  blocks cover the array and it ends holding that function.
-/
import proofs.«141968_j15393162789082_1_alg».proof.Proof.Gen.KernelIdeal.Value
import proofs.«141968_j15393162789082_1_alg».proof.Proof.KernelBlock

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.GatedLinear
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block indices over the grid: `x`'s and the result's windows are at block row `t`, the weight's and the thresholds' stay
    at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The three arrays as the region finds them. -/
abbrev X (c : Dev nD) : S262144x256.Idx → Elt Ideal .f32 := V m c main_arg0
abbrev W (c : Dev nD) : S256x256.Idx → Elt Ideal .f32 := V m c main_arg1
abbrev TH (c : Dev nD) : S256.Idx → Elt Ideal .f32 := V m c main_arg2

/-- The weight's window holds the whole weight at every point. -/
theorem wblk_eq (c : Dev nD) (t : Fin cfg0.N) : (iblk m c 1 t : Vec Ideal S256x256 .f32) = W m c := by
  obtain ⟨-, -, e0, e1, -, -, -⟩ := idx_facts t
  unfold iblk
  funext y
  rw [View.read_apply]
  show V m c main_arg1 _ = V m c main_arg1 y
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The thresholds' window holds the whole vector at every point. -/
theorem thblk_eq (c : Dev nD) (t : Fin cfg0.N) : (iblk m c 2 t : Vec Ideal S256 .f32) = TH m c := by
  obtain ⟨-, -, -, -, e0, -, -⟩ := idx_facts t
  unfold iblk
  funext y
  rw [View.read_apply]
  show V m c main_arg2 _ = V m c main_arg2 y
  congr 1
  funext a
  apply Fin.ext
  match a with
  | ⟨0, _⟩ => show win0_2.index t (0 : Fin 1) * 256 + 1 * (y 0).val = (y 0).val; rw [e0]; omega

/-- `x`'s window at point `t` holds rows `4096·t …` of `x`. -/
theorem xblk_apply (c : Dev nD) (t : Fin cfg0.N) (r : Fin 4096) (k : Fin 256) (b : Fin 262144) (hb : b.val = t.val * 4096 + r.val) :
    (iblk m c 0 t : Vec Ideal S4096x256 .f32) (ix2 r k) = X m c (ix2 b k) := by
  obtain ⟨e0, e1, -, -, -, -, -⟩ := idx_facts t
  unfold iblk
  rw [View.read_apply]
  show V m c main_arg0 _ = V m c main_arg0 (ix2 b k)
  congr 1
  funext a
  apply Fin.ext
  match a with
  | ⟨0, _⟩ => show win0_0.index t (0 : Fin 2) * 4096 + 1 * r.val = b.val; rw [e0, hb]; omega
  | ⟨1, _⟩ => show win0_0.index t (1 : Fin 2) * 256 + 1 * k.val = k.val; rw [e1]; omega

/-- WHAT POINT `t` WRITES BACK is block `t` of the layer's function of the three arrays. -/
theorem flushed_eq (c : Dev nD) (t : Fin cfg0.N) :
    (dats m 0 c).flushed 3 t = ((cfg0.win 3).blk t).view.read (Elt Ideal) (out (X m c) (W m c) (TH m c)) := by
  rw [flushed3]
  unfold out0_3
  rw [View.canon_unit_zero hz2]
  simp only [View.ld_unit_zero (S := S4096x256) hz2, View.ld_unit_zero (S := S256x256) hz2, View.ld_unit_zero (S := S256) hz1]
  rw [wblk_eq, thblk_eq]
  obtain ⟨-, -, -, -, -, e0, e1⟩ := idx_facts t
  funext j
  obtain ⟨r, o, rfl⟩ : ∃ (r : Fin 4096) (o : Fin 256), j = ix2 r o := ⟨j 0, j 1, eq_ix2 j⟩
  have hN : cfg0.N = 64 := N_0
  have ht : t.val < 64 := hN ▸ t.isLt
  let b : Fin 262144 := ⟨t.val * 4096 + r.val, by have := r.isLt; omega⟩
  have hemb : ((cfg0.win 3).blk t).view.emb (ix2 r o) = ix2 b o := by
    funext a
    apply Fin.ext
    match a with
    | ⟨0, _⟩ => show win0_3.index t (0 : Fin 2) * 4096 + 1 * r.val = t.val * 4096 + r.val; rw [e0]; omega
    | ⟨1, _⟩ => show win0_3.index t (1 : Fin 2) * 256 + 1 * o.val = o.val; rw [e1]; omega
  show k0_pay1 (F := Ideal) (W m c) (TH m c) (iblk m c 0 t) (ix2 r o) = out (X m c) (W m c) (TH m c) (((cfg0.win 3).blk t).view.emb (ix2 r o))
  rw [hemb, out_apply]
  refine (Cert.KernelIdeal.Block.pay_apply (W m c) (TH m c) (iblk m c 0 t) r o).trans ?_
  refine Finset.sum_congr rfl fun k _ => ?_
  exact congrArg (· * (W m c (ix2 o k) * gate (W m c) (TH m c) o)) (xblk_apply m c t r k b rfl)

/-- An index of the array is in point `t`'s block iff each coordinate is in the block's range on its axis. -/
theorem mem_blk (t : Fin cfg0.N) (i : S262144x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v0).slice (win0_3.rect t)).set ↔ _
  rw [View.set_slice_whole, Rect.mem_set_unit]
  exact Iff.rfl

/-- Row `b` is in the block of point `b / 4096`: the 64 blocks cover the array. -/
theorem cover (i : S262144x256.Idx) : ∃ t : Fin cfg0.N, (cfg0.win 3).flush t = true ∧ i ∈ ((cfg0.win 3).blk t).view.set := by
  have hi0 : (i 0).val < 262144 := idx2_lt0 i
  have hi1 : (i 1).val < 256 := idx2_lt1 i
  have hN : cfg0.N = 64 := N_0
  have hlt : (i 0).val / 4096 < cfg0.N := by rw [hN]; omega
  obtain ⟨-, -, -, -, -, e0, e1⟩ := idx_facts ⟨(i 0).val / 4096, hlt⟩
  refine ⟨⟨(i 0).val / 4096, hlt⟩, flush0_3 _, ?_⟩
  rw [mem_blk]
  intro a
  match a with
  | ⟨0, _⟩ =>
    show win0_3.index ⟨(i 0).val / 4096, hlt⟩ (0 : Fin 2) * 4096 ≤ (i 0).val ∧ (i 0).val < win0_3.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_3.index ⟨(i 0).val / 4096, hlt⟩ (1 : Fin 2) * 256 ≤ (i 1).val ∧ (i 1).val < win0_3.index ⟨(i 0).val / 4096, hlt⟩ (1 : Fin 2) * 256 + 256
    rw [e1]
    omega

/-- THE ARRAY after the run: the layer's function of the three arrays as the region finds them. -/
theorem final (c : Dev nD) : (dats m 0 c).arrAt 3 cfg0.N = out (X m c) (W m c) (TH m c) :=
  (dats m 0 c).arrAt_eq_of_cover 3 (out (X m c) (W m c) (TH m c)) (fun t _ => flushed_eq m c t) cover

/-- The run, read: the result array at the layer's function of the arguments as launched, the arguments unchanged. -/
theorem run : θ_run defs (onTc (τ := τ) (main (F := Ideal))) ⟨m, fun _ => 0, ρ⟩ fun r => ∀ c : Dev nD,
      r.2.mem ((c : Thread nD τ).loc main_v0) = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.ReferenceValue.lean ====
/-
  The host program's result.  Its last stage is a general matrix product of `x` with the gated weight transposed, and the
  stages before it compute the gate as a vector `[256]`: the sum of the row's absolute values from a zero initial value, divided
  by 256, the threshold subtracted, compared with zero, the bit converted unsigned; the vector is then laid as a column and
  along the rows.  Read stage by stage at an index, entry `(b, o)` of the result is `Σ_k x[b,k] · (w[o,k] · gate w th o)`:
  the layer's function `GatedLinear.out`.
-/
import proofs.«141968_j15393162789082_1_alg».proof.Proof.Gen.ReferenceIdeal.Read
import proofs.«141968_j15393162789082_1_alg».proof.Proof.GatedLinear

noncomputable section

namespace Cert.ReferenceIdeal.Gated

open Cert.ReferenceIdeal Cert.ReferenceIdeal.Gen Cert.ReferenceIdeal.Read Idealize.ShloMosaic Idealize.ShloMosaic.ValueIdx Cert.GatedLinear

/-- The gate vector at `o` is channel `o`'s gate. -/
theorem gateVector_apply (w : (⟨S256x256, .f32⟩ : BufTy).Contents (Elt Ideal)) (th : (⟨S256, .f32⟩ : BufTy).Contents (Elt Ideal)) (o : Fin 256) :
    val_main_v7 (F := Ideal) w th (ix1 o) = gate w th o := by
  have hsum : val_main_v1 (F := Ideal) w (ix1 o) = rowAbsSum w o := by
    rw [val_main_v1_apply]
    show Ideal.ofBits .f32 0x00000000#32 + _ = _
    rw [Ideal.ofBits_zero_f32, zero_add]
    unfold rowAbsSum
    refine Finset.sum_congr rfl fun k _ => ?_
    have e : idx_main_v1 (ix1 o) k = ix2 o k := funext fun a => Fin.ext (by match a with | ⟨0, _⟩ => rfl | ⟨1, _⟩ => rfl)
    rw [e]
    rfl
  show (((Ideal.cmp .ogt (Ideal.div (val_main_v1 (F := Ideal) w (ix1 o)) (val_main_v2 (F := Ideal) (ix1 o)) - th (ix1 o)) (val_main_v5 (F := Ideal) (ix1 o))).toNat : ℝ) : EReal) = _
  rw [hsum, val_main_v2_apply, val_main_v5_apply]
  rfl

/-- The gated weight transposed at `(k, o)`: `w[o,k]` times channel `o`'s gate. -/
theorem gatedT_apply (w : (⟨S256x256, .f32⟩ : BufTy).Contents (Elt Ideal)) (th : (⟨S256, .f32⟩ : BufTy).Contents (Elt Ideal)) (k o : Fin 256) :
    val_main_v11 (F := Ideal) w th (ix2 k o) = w (ix2 o k) * gate w th o := by
  have e11 : idx_main_v11 (ix2 k o) = ix2 o k := funext fun a => Fin.ext (by match a with | ⟨0, _⟩ => rfl | ⟨1, _⟩ => rfl)
  have e9 : idx_main_v9 (ix2 o k) = ix2 o (0 : Fin 1) := funext fun a => Fin.ext (by match a with | ⟨0, _⟩ => rfl | ⟨1, _⟩ => rfl)
  have e8 : idx_main_v8 (ix2 o (0 : Fin 1)) = ix1 o := funext fun a => Fin.ext (by match a with | ⟨0, _⟩ => rfl)
  rw [val_main_v11_apply, e11, val_main_v10_apply, val_main_v9_apply, e9, val_main_v8_apply, e8, gateVector_apply]
  rfl

/-- THE RESULT at `(b, o)`. -/
theorem result_apply (x : (⟨S262144x256, .f32⟩ : BufTy).Contents (Elt Ideal)) (w : (⟨S256x256, .f32⟩ : BufTy).Contents (Elt Ideal))
    (th : (⟨S256, .f32⟩ : BufTy).Contents (Elt Ideal)) (b : Fin 262144) (o : Fin 256) :
    val_main_v12 (F := Ideal) x w th (ix2 b o) = ∑ k : Fin 256, x (ix2 b k) * (w (ix2 o k) * gate w th o) := by
  rw [val_main_v12_apply]
  refine Finset.sum_congr rfl fun k _ => ?_
  have el : lidx_main_v12 (ix2 b o) k = ix2 b k := funext fun a => Fin.ext (by match a with | ⟨0, _⟩ => rfl | ⟨1, _⟩ => rfl)
  have er : ridx_main_v12 (ix2 b o) k = ix2 k o := funext fun a => Fin.ext (by match a with | ⟨0, _⟩ => rfl | ⟨1, _⟩ => rfl)
  rw [el, er, gatedT_apply]

/-- The host program's result is the layer's function of its three arguments. -/
theorem result_eq (x : (⟨S262144x256, .f32⟩ : BufTy).Contents (Elt Ideal)) (w : (⟨S256x256, .f32⟩ : BufTy).Contents (Elt Ideal))
    (th : (⟨S256, .f32⟩ : BufTy).Contents (Elt Ideal)) :
    val_main_v12 (F := Ideal) x w th = out x w th := by
  funext i
  obtain ⟨b, o, rfl⟩ : ∃ (b : Fin 262144) (o : Fin 256), i = ix2 b o := ⟨i 0, i 1, eq_ix2 i⟩
  rw [result_apply, out_apply]

end Cert.ReferenceIdeal.Gated

end
-- ==== Proof.lean ====
/- The proof of `Cert.Claim` (proofs.«141968_j15393162789082_1_alg».proof.Defs).

   The kernel and the reference both compute a linear layer whose output channels are gated by the weight's own rows:
   with `gate w th o = 1` when `(Σ_k |w[o,k]|) / 256 − th[o] > 0` and `0` otherwise,

       out[b, o] = Σ_k x[b,k] · (w[o,k] · gate w th o)          (Proof/GatedLinear.lean).

   The kernel walks the 262144 rows of `x` in 64 blocks of 4096; at each block it recomputes the gate as a column from a lane
   sum, multiplies the weight's rows by it, transposes, and takes the matrix product of the block with the result into a zero
   accumulator.  Over the extended reals the narrowing of the operands' float format is the identity, so the block's entry
   `(r, o)` is row `r` of the block against the gated row `o` (Proof/KernelBlock.lean), and the 64 blocks written back
   cover the array, which therefore ends at `out x w th` (Proof/KernelWhole.lean).  The reference computes the gate once as a
   vector, lays it along the rows, and takes one general matrix product; read stage by stage its result is the same function
   (Proof/ReferenceValue.lean).  The two sides have the same arrangement of sums and products, so no law that would need finite
   entries is used and the precondition is never opened.  The only difference in spelling is the gate's bit: widened to a word
   and converted signed on one side, converted unsigned on the other; a one-bit word has the same value either way.

   The three frames are the generated ones (the reference's is its generated run with the result dropped), and the
   idealization rewrote no operation, so `preserves` is `True`. -/
import proofs.«141968_j15393162789082_1_alg».proof.Defs
import proofs.«141968_j15393162789082_1_alg».proof.Proof.Gen.Kernel
import proofs.«141968_j15393162789082_1_alg».proof.Proof.Gen.Kernel.Skeleton
import proofs.«141968_j15393162789082_1_alg».proof.Proof.Gen.Kernel.Launch
import proofs.«141968_j15393162789082_1_alg».proof.Proof.Gen.Kernel.Points
import proofs.«141968_j15393162789082_1_alg».proof.Proof.Gen.Kernel.Frame
import proofs.«141968_j15393162789082_1_alg».proof.Proof.Gen.KernelIdeal
import proofs.«141968_j15393162789082_1_alg».proof.Proof.Gen.KernelIdeal.Skeleton
import proofs.«141968_j15393162789082_1_alg».proof.Proof.Gen.KernelIdeal.Launch
import proofs.«141968_j15393162789082_1_alg».proof.Proof.Gen.KernelIdeal.Points
import proofs.«141968_j15393162789082_1_alg».proof.Proof.Gen.KernelIdeal.Frame
import proofs.«141968_j15393162789082_1_alg».proof.Proof.Gen.ReferenceIdeal
import proofs.«141968_j15393162789082_1_alg».proof.Proof.Gen.Pre_finite_inputs
import proofs.«141968_j15393162789082_1_alg».proof.Proof.Gen.KernelIdeal.Value
import proofs.«141968_j15393162789082_1_alg».proof.Proof.Gen.ReferenceIdeal.Run
import proofs.«141968_j15393162789082_1_alg».proof.Proof.Gen.ReferenceIdeal.Read
import proofs.«141968_j15393162789082_1_alg».proof.Proof.KernelWhole
import proofs.«141968_j15393162789082_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the gated layer's function of arguments that agree. -/
theorem algebraic : Cert.algebraic_KernelIdeal_ReferenceIdeal := by
  intro m ρ m' ρ' _ hagree
  refine ⟨fun c => Cert.GatedLinear.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Gated.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
